-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128x128 : Shape := ⟨4, ![8, 256, 128, 128]⟩
abbrev S_ : Shape := ⟨0, ![]⟩

class Facts : Prop where
  bcast_S_S8x256x128x128 : S_.BroadcastsInDim S8x256x128x128 (![] : Fin 0 → Fin S8x256x128x128.rank)
  reducesTo_S8x256x128x128_S_d0_1_2_3 : S8x256x128x128.ReducesTo [0, 1, 2, 3] S_
  h_S_ : 0 < S_.numel

variable [Facts]

def fn {F : FTy → Type} [FloatOps F] (main_arg0 : FVec F S8x256x128x128 .f32) (main_arg1 : FVec F S8x256x128x128 .f32) : IVec S_ 1 :=
  let main_v0 : FVec F S8x256x128x128 .f32 := Host.absf main_arg0
  let main_cst : FVec F S_ .f32 := constant S_ .f32 0x7F800000#32
  let main_v1 : FVec F S8x256x128x128 .f32 := broadcastInDim S8x256x128x128 ![] bcast_S_S8x256x128x128 main_cst
  let main_v2 : IVec S8x256x128x128 1 := cmpf .olt main_v0 main_v1
  let main_c : IVec S_ 1 := constantI S_ 1 1#1
  let main_v3 : IVec S_ 1 := (fun x v => Host.reduce IntOp.andi x v reducesTo_S8x256x128x128_S_d0_1_2_3 h_S_) main_v2 main_c
  let main_v4 : FVec F S8x256x128x128 .f32 := Host.absf main_arg1
  let main_cst_0 : FVec F S_ .f32 := constant S_ .f32 0x7F800000#32
  let main_v5 : FVec F S8x256x128x128 .f32 := broadcastInDim S8x256x128x128 ![] bcast_S_S8x256x128x128 main_cst_0
  let main_v6 : IVec S8x256x128x128 1 := cmpf .olt main_v4 main_v5
  let main_c_1 : IVec S_ 1 := constantI S_ 1 1#1
  let main_v7 : IVec S_ 1 := (fun x v => Host.reduce IntOp.andi x v reducesTo_S8x256x128x128_S_d0_1_2_3 h_S_) main_v6 main_c_1
  let main_v8 : IVec S_ 1 := andi main_v3 main_v7
  main_v8
-- ==== Kernel.lean ====
abbrev S8x256x128x128 : Shape := ⟨4, ![8, 256, 128, 128]⟩
abbrev S16384x2048 : Shape := ⟨2, ![16384, 2048]⟩
abbrev S1x2048 : Shape := ⟨2, ![1, 2048]⟩
abbrev S512x2048 : Shape := ⟨2, ![512, 2048]⟩
abbrev S2048 : Shape := ⟨1, ![2048]⟩
abbrev S_ : Shape := ⟨0, ![]⟩
abbrev S1x1 : Shape := ⟨2, ![1, 1]⟩
abbrev S512 : Shape := ⟨1, ![512]⟩
abbrev S512x1 : Shape := ⟨2, ![512, 1]⟩
abbrev S1 : Shape := ⟨1, ![1]⟩

abbrev nBuf : Space → Nat
  | .hbm => 25
  | .vmem => 13
  | .smem => 0
  | _ => 0

abbrev bufTy : (tb : Table) → Fin (tcTables nBuf tb) → BufTy
  | .hbm, ⟨0, _⟩ => ⟨S8x256x128x128, .f32⟩
  | .hbm, ⟨1, _⟩ => ⟨S8x256x128x128, .f32⟩
  | .hbm, ⟨2, _⟩ => ⟨S16384x2048, .f32⟩
  | .hbm, ⟨3, _⟩ => ⟨S16384x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S_, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S_, .f32⟩
  | .hbm, ⟨15, _⟩ => ⟨S1x2048, .f32⟩
  | .hbm, ⟨16, _⟩ => ⟨S1x2048, .f32⟩
  | .hbm, ⟨17, _⟩ => ⟨S_, .f32⟩
  | .hbm, ⟨18, _⟩ => ⟨S1x2048, .f32⟩
  | .hbm, ⟨19, _⟩ => ⟨S1x2048, .f32⟩
  | .hbm, ⟨20, _⟩ => ⟨S1x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S1x2048, .f32⟩
  | .local _ .vmem, ⟨12, _⟩ => ⟨S1x1, .f32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  shapeCasts_S8x256x128x128_S16384x2048 : S8x256x128x128.ShapeCasts S16384x2048
  inb_S1x2048_S1x2048_0_0 : ∀ a, (![0, 0] : Fin 2 → Nat) a + S1x2048.size a ≤ S1x2048.size a
  h_S1x2048 : 0 < S1x2048.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S1x2048_S1x2048 : S1x2048.ShapeCasts S1x2048
  reduces_S512x2048_S2048 : S512x2048.Reduces [0] S2048
  shapeCasts_S2048_S1x2048 : S2048.ShapeCasts S1x2048
  bcast_S_S1x2048 : S_.BroadcastsInDim S1x2048 (![] : Fin 0 → Fin S1x2048.rank)
  inb_S1x1_S1x1_0_0 : ∀ a, (![0, 0] : Fin 2 → Nat) a + S1x1.size a ≤ S1x1.size a
  h_S1x1 : 0 < S1x1.numel
  broadcasts_S1x2048_S512x2048 : S1x2048.Broadcasts S512x2048
  reduces_S512x2048_S512 : S512x2048.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .f32 = 32 ∨ (Rect.block (s := S16384x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .f32 = 32 ∨ (Rect.block (s := S16384x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S16384x2048.size a
  hwx1_1 : ∀ i : grid1.Coords, EltTy.bits .f32 = 32 ∨ (Rect.block (s := S16384x2048) S512x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x2048.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x2048.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x256x128x128 : Shape := ⟨4, ![8, 256, 128, 128]⟩
abbrev S16384x2048 : Shape := ⟨2, ![16384, 2048]⟩
abbrev S_ : Shape := ⟨0, ![]⟩
abbrev S2048 : Shape := ⟨1, ![2048]⟩
abbrev S1x2048 : Shape := ⟨2, ![1, 2048]⟩
abbrev S2048x2048 : Shape := ⟨2, ![2048, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8x256x128x128, .f32⟩
  | .hbm, ⟨1, _⟩ => ⟨S8x256x128x128, .f32⟩
  | .hbm, ⟨2, _⟩ => ⟨S16384x2048, .f32⟩
  | .hbm, ⟨3, _⟩ => ⟨S16384x2048, .f32⟩
  | .hbm, ⟨4, _⟩ => ⟨S16384x2048, .f32⟩
  | .hbm, ⟨5, _⟩ => ⟨S_, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S16384x2048, .f32⟩
  | .hbm, ⟨10, _⟩ => ⟨S_, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S_, .f32⟩
  | .hbm, ⟨15, _⟩ => ⟨S1x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S2048x2048, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  shapeCasts_S8x256x128x128_S16384x2048 : S8x256x128x128.ShapeCasts S16384x2048
  reducesTo_S16384x2048_S2048_d0 : S16384x2048.ReducesTo [0] S2048
  h_S_ : 0 < S_.numel
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S16384x2048_0_1 : S1x2048.BroadcastsInDim S16384x2048 (![0, 1] : Fin 2 → Fin S16384x2048.rank)
  reducesTo_S2048x2048_S_d0_1 : S2048x2048.ReducesTo [0, 1] S_
  dot_S16384x2048_S16384x2048_S2048x2048_0_0_1_1_n_n_wf : DotDims.WF S16384x2048 S16384x2048 S2048x2048 [0] [0] [1] [1] [] []

variable [Facts₀]

def dot_S16384x2048_S16384x2048_S2048x2048_0_0_1_1_n_n : DotDims S16384x2048 S16384x2048 S2048x2048 where
  lhsContracting := [0]
  rhsContracting := [0]
  lhsNonContracting := [1]
  rhsNonContracting := [1]
  lhsBatch := []
  rhsBatch := []
  wf := dot_S16384x2048_S16384x2048_S2048x2048_0_0_1_1_n_n_wf

class Facts : Prop extends Facts₀ where

variable [Facts]
-- ==== Proof.Spec.lean ====
import Idealize.ShloMosaic.PureOps.Ideal
import Idealize.ShloMosaic.PureOps.Ideal.Laws
import Idealize.ShloMosaic.Lib.ValueIdx
import Idealize.ShloMosaic.Lib.IdealHost

/-!
The mathematics both programs compute, over the extended reals.

`X₁ X₂` are the two inputs laid out as 16384 rows (pixels) by 2048 columns (channels). A column's
denominator is `den X c = √(∑ₚ X(p,c)²) + ε`. One program scales each entry by the reciprocal `1 / den`,
sums each row, and adds up the products of the two row sums (`rowDot`); the other divides each entry by `den`,
forms the 2048 × 2048 Gram matrix `∑ₚ X₁(p,c)/den · X₂(p,d)/den` and adds up its entries (`gramSum`). Both
then divide by 2²² and square (`tail`). On finite inputs every quantity is a real number, `x · (1/y) = x / y`
for `y = den > 0`, and `(∑_c a_c)(∑_d b_d) = ∑_{c,d} a_c b_d`, so the two scalars agree.
-/

noncomputable section

namespace Cert.GramMean

open Idealize.ShloMosaic Idealize.ShloMosaic.ValueIdx

/-- The inputs' layout: 16384 pixels by 2048 channels. -/
abbrev SX : Shape := ⟨2, ![16384, 2048]⟩
/-- The Gram matrix's layout. -/
abbrev SG : Shape := ⟨2, ![2048, 2048]⟩

/-- The stabilizer ε (the f32 nearest 1e-6), as both programs spell it. -/
def eps : EReal := Ideal.ofBits .f32 0x358637BD#32
/-- The numerator 1.0 of the reciprocal. -/
def one : EReal := Ideal.ofBits .f32 0x3F800000#32
/-- The divisor 2²² = 2048 · 2048 of the mean. -/
def cnt : EReal := Ideal.ofBits .f32 0x4A800000#32

/-- A column's sum of squares over the pixels. -/
def colSq (X : SX.Idx → EReal) (c : Fin 2048) : EReal := ∑ p : Fin 16384, X (ix2 p c) * X (ix2 p c)
/-- A column's denominator: its norm plus ε. -/
def den (X : SX.Idx → EReal) (c : Fin 2048) : EReal := Ideal.sqrt (colSq X c) + eps
/-- The reciprocal of a column's denominator. -/
def inv (X : SX.Idx → EReal) (c : Fin 2048) : EReal := Ideal.div one (den X c)
/-- A row's sum of its entries, each scaled by its column's reciprocal. -/
def rowSum (X : SX.Idx → EReal) (p : Fin 16384) : EReal := ∑ c : Fin 2048, X (ix2 p c) * inv X c
/-- The sum over the pixels of the product of the two row sums. -/
def rowDot (X1 X2 : SX.Idx → EReal) : EReal := ∑ p : Fin 16384, rowSum X1 p * rowSum X2 p
/-- The sum of all entries of the Gram matrix of the two column-normalized inputs. -/
def gramSum (X1 X2 : SX.Idx → EReal) : EReal :=
  ∑ j : SG.Idx, ∑ p : Fin 16384, Ideal.div (X1 (ix2 p (j 0))) (den X1 (j 0)) * Ideal.div (X2 (ix2 p (j 1))) (den X2 (j 1))
/-- The mean over 2²² entries, squared. -/
def tail (z : EReal) : EReal := Ideal.div z cnt * Ideal.div z cnt

/-- The pattern of 1.0 denotes 1. -/
theorem one_eq : one = 1 := Ideal.ofBits_one_f32

end Cert.GramMean

end
-- ==== Proof.SpecLaws.lean ====
import proofs.«110359_j8693013807330_1_alg».proof.Proof.Spec

/-!
The laws of the specification: ε is a positive real; a sum over the 16384 pixels splits into 32 tiles of 512 rows;
and on finite inputs the row-sum form and the Gram-matrix form of the scalar agree.
-/

noncomputable section

namespace Cert.GramMean

open Idealize.ShloMosaic Idealize.ShloMosaic.ValueIdx

/-- ε is a positive real. -/
theorem eps_pos : ∃ e : ℝ, 0 < e ∧ eps = (e : EReal) := by
  -- sign 0, exponent field 107, fraction field 407485: (2²³ + 407485) · 2^(107 - 127 - 23) = 8796093 / 2⁴³
  refine ⟨8796093 / 2 ^ 43, by norm_num, ?_⟩
  simp [eps, Ideal.ofBits, Ideal.ieee, -EReal.coe_mul]; norm_num

/-- A sum over 16384 = 32 · 512 pixels is the sum over 32 tiles of the sums over a tile's 512 rows. -/
theorem sum_tiles {M : Type*} [AddCommMonoid M] (f : Fin 16384 → M) :
    ∑ p : Fin 16384, f p
      = ∑ t : Fin 32, ∑ r : Fin 512, f ⟨512 * t.val + r.val, by have := t.isLt; have := r.isLt; omega⟩ := by
  -- the pair (t, r) ↦ r + 512 · t is a bijection of Fin 32 × Fin 512 with Fin 16384
  rw [← Equiv.sum_comp ((finProdFinEquiv (m := 32) (n := 512)).trans (finCongr (show 32 * 512 = 16384 by norm_num))) f,
    Fintype.sum_prod_type]
  refine Finset.sum_congr rfl fun t _ => Finset.sum_congr rfl fun r _ => ?_
  congr 1
  apply Fin.ext
  simp [finProdFinEquiv]
  omega

/-- The coercion of the reals into the extended reals goes through a finite sum. -/
private theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- On a real-valued input a column's denominator is a positive real: the square root of a sum of squares, plus ε. -/
private theorem den_real (X : SX.Idx → EReal) (x : SX.Idx → ℝ) (hx : ∀ i, X i = (x i : EReal)) (c : Fin 2048) :
    ∃ y : ℝ, 0 < y ∧ den X c = (y : EReal) := by
  obtain ⟨e, he, hee⟩ := eps_pos
  have hs : colSq X c = ((∑ p : Fin 16384, x (ix2 p c) * x (ix2 p c) : ℝ) : EReal) := by
    rw [colSq, coe_sum]
    refine Finset.sum_congr rfl fun p _ => ?_
    rw [hx, EReal.coe_mul]
  have hnn : 0 ≤ ∑ p : Fin 16384, x (ix2 p c) * x (ix2 p c) :=
    Finset.sum_nonneg fun p _ => mul_self_nonneg _
  refine ⟨Real.sqrt (∑ p : Fin 16384, x (ix2 p c) * x (ix2 p c)) + e,
    add_pos_of_nonneg_of_pos (Real.sqrt_nonneg _) he, ?_⟩
  rw [den, hs, Ideal.sqrt_coe, if_neg (not_lt.mpr hnn), hee, EReal.coe_add]

/-- On finite inputs the two scalars agree. -/
theorem rowDot_eq_gramSum (X1 X2 : SX.Idx → EReal) (h1 : ∀ i, ∃ r : ℝ, X1 i = (r : EReal))
    (h2 : ∀ i, ∃ r : ℝ, X2 i = (r : EReal)) : rowDot X1 X2 = gramSum X1 X2 := by
  choose x1 hx1 using h1
  choose x2 hx2 using h2
  choose y1 hy1pos hy1 using den_real X1 x1 hx1
  choose y2 hy2pos hy2 using den_real X2 x2 hx2
  -- the reciprocal of a positive real denominator y is the real 1 / y
  have hinv1 : ∀ c, inv X1 c = ((1 / y1 c : ℝ) : EReal) := fun c => by
    rw [inv, hy1, Ideal.div_coe (hy1pos c).ne', one_eq, one_mul]
  have hinv2 : ∀ c, inv X2 c = ((1 / y2 c : ℝ) : EReal) := fun c => by
    rw [inv, hy2, Ideal.div_coe (hy2pos c).ne', one_eq, one_mul]
  -- so every row sum is a real number
  have hrs1 : ∀ p, rowSum X1 p = ((∑ c : Fin 2048, x1 (ix2 p c) * (1 / y1 c) : ℝ) : EReal) := fun p => by
    rw [rowSum, coe_sum]
    refine Finset.sum_congr rfl fun c _ => ?_
    rw [hx1, hinv1, EReal.coe_mul]
  have hrs2 : ∀ p, rowSum X2 p = ((∑ c : Fin 2048, x2 (ix2 p c) * (1 / y2 c) : ℝ) : EReal) := fun p => by
    rw [rowSum, coe_sum]
    refine Finset.sum_congr rfl fun c _ => ?_
    rw [hx2, hinv2, EReal.coe_mul]
  -- both scalars are coercions of real sums
  have hL : rowDot X1 X2
      = ((∑ p : Fin 16384, (∑ c : Fin 2048, x1 (ix2 p c) * (1 / y1 c)) * (∑ d : Fin 2048, x2 (ix2 p d) * (1 / y2 d)) : ℝ) : EReal) := by
    rw [rowDot, coe_sum]
    refine Finset.sum_congr rfl fun p _ => ?_
    rw [hrs1, hrs2, EReal.coe_mul]
  have hR : gramSum X1 X2
      = ((∑ c : Fin 2048, ∑ d : Fin 2048, ∑ p : Fin 16384,
          (x1 (ix2 p c) * (1 / y1 c)) * (x2 (ix2 p d) * (1 / y2 d)) : ℝ) : EReal) := by
    rw [gramSum, sum_idx2, coe_sum]
    refine Finset.sum_congr rfl fun c _ => ?_
    rw [coe_sum]
    refine Finset.sum_congr rfl fun d _ => ?_
    rw [coe_sum]
    refine Finset.sum_congr rfl fun p _ => ?_
    show Ideal.div (X1 (ix2 p c)) (den X1 c) * Ideal.div (X2 (ix2 p d)) (den X2 d) = _
    rw [hy1, hy2, Ideal.div_coe (hy1pos c).ne', Ideal.div_coe (hy2pos d).ne', hx1, hx2]
    simp only [EReal.coe_mul]
  rw [hL, hR]
  refine congrArg (fun r : ℝ => (r : EReal)) ?_
  -- in ℝ: (∑_c a_c)(∑_d b_d) = ∑_c ∑_d a_c b_d, and the sums over c, d and p commute
  calc ∑ p : Fin 16384, (∑ c : Fin 2048, x1 (ix2 p c) * (1 / y1 c)) * (∑ d : Fin 2048, x2 (ix2 p d) * (1 / y2 d))
      = ∑ p : Fin 16384, ∑ c : Fin 2048, ∑ d : Fin 2048,
          (x1 (ix2 p c) * (1 / y1 c)) * (x2 (ix2 p d) * (1 / y2 d)) :=
        Finset.sum_congr rfl fun p _ => Finset.sum_mul_sum _ _ _ _
    _ = ∑ c : Fin 2048, ∑ p : Fin 16384, ∑ d : Fin 2048,
          (x1 (ix2 p c) * (1 / y1 c)) * (x2 (ix2 p d) * (1 / y2 d)) := Finset.sum_comm
    _ = ∑ c : Fin 2048, ∑ d : Fin 2048, ∑ p : Fin 16384,
          (x1 (ix2 p c) * (1 / y1 c)) * (x2 (ix2 p d) * (1 / y2 d)) :=
        Finset.sum_congr rfl fun c _ => Finset.sum_comm

end Cert.GramMean

end
-- ==== Proof.Finite.lean ====
import proofs.«110359_j8693013807330_1_alg».proof.Pre_finite_inputs
import Idealize.ShloMosaic.Lib.ReduceAll
import Idealize.ShloMosaic.PureOps.Ideal.Laws

/-!
The precondition says every entry of both inputs has absolute value below +∞; over the extended reals that makes
every entry a real number, and a reshape only re-indexes the entries.
-/

noncomputable section

namespace Cert.FiniteInputs

open Idealize.ShloMosaic

/-- The rank-zero shape has exactly one index: there is no axis to give a coordinate on. -/
instance : Subsingleton Cert.Pre_finite_inputs.S_.Idx := ⟨fun _ _ => funext fun d => d.elim0⟩

/-- The f32 pattern with all exponent bits set and a zero mantissa denotes +∞. -/
theorem ofBits_inf : Ideal.ofBits .f32 0x7F800000#32 = (⊤ : EReal) := by simp [Ideal.ofBits, Ideal.ieee]

/-- An extended real whose absolute value `max x (-x)` is strictly below +∞ is a real number:
    at `⊤` the maximum is `⊤` itself, at `⊥` it is `-⊥ = ⊤`, and neither is below `⊤`. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One `jnp.all(|a| < inf)` read back: the reduction by `and` over all four axes came out 1, so the comparison is 1 at
    every index, and the comparison at an index is `max (a i) (-(a i)) < ⊤`. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hn : 0 < Cert.Pre_finite_inputs.S_.numel)
    (j : Cert.Pre_finite_inputs.S_.Idx)
    (e : Host.reduce IntOp.andi
        (cmpf .olt (Host.absf a) (broadcastInDim s ![] hb (constant Cert.Pre_finite_inputs.S_ .f32 0x7F800000#32)))
        (constantI Cert.Pre_finite_inputs.S_ 1 1#1) hr hn j = 1#1) :
    ∀ i, ∃ r : ℝ, a i = (r : EReal) := by
  intro i
  have hi := Host.reduce_andi_all _ _ hr hn j e i
  have hc : Ideal.cmp .olt (max (a i) (-(a i))) (Ideal.ofBits .f32 0x7F800000#32) = 1#1 := hi
  rw [ofBits_inf] at hc
  exact real_of_abs_lt_top (a i) hc

/-- Under the precondition every entry of both inputs is a real number. -/
theorem real_of_pre [Cert.Pre_finite_inputs.Facts]
    (a0 a1 : FVec Ideal Cert.Pre_finite_inputs.S8x256x128x128 .f32)
    (h : Cert.Pre_finite_inputs.fn (F := Ideal) a0 a1 = fun _ => 1#1) :
    (∀ i, ∃ r : ℝ, a0 i = (r : EReal)) ∧ (∀ i, ∃ r : ℝ, a1 i = (r : EReal)) := by
  -- the predicate's one result word is the `and` of the two reductions
  have h0 := congrFun h (fun d => d.elim0)
  dsimp only [Cert.Pre_finite_inputs.fn, andi] at h0
  obtain ⟨e0, e1⟩ := IntOp.andi_eq_one.1 h0
  exact ⟨real_of_all a0 _ _ _ _ e0, real_of_all a1 _ _ _ _ e1⟩

/-- A reshape of an array of reals is an array of reals. -/
theorem shapeCast_real {s t : Shape} (x : s.Idx → EReal) (h : s.ShapeCasts t)
    (hx : ∀ i, ∃ r : ℝ, x i = (r : EReal)) : ∀ j, ∃ r : ℝ, shapeCast t x h j = (r : EReal) := by
  -- the reshaped array at `j` is the operand at the position of the same row-major rank
  intro j
  exact hx (Shape.reshapeEquiv h j)

end Cert.FiniteInputs

end
-- ==== Proof.RefValue.lean ====
import proofs.«110359_j8693013807330_1_alg».proof.Proof.Gen.ReferenceIdeal.Read
import proofs.«110359_j8693013807330_1_alg».proof.Proof.Spec
import Idealize.ShloMosaic.Lib.ValueIdx
import Idealize.ShloMosaic.PureOps.Ideal.Laws

/-!
The reference's result, read one operation at a time, is the mean-square tail of the Gram-matrix sum of the
two reshaped inputs.
-/

noncomputable section

namespace Cert.ReferenceIdeal.RefValue

open Cert.ReferenceIdeal Cert.ReferenceIdeal.Read Idealize.ShloMosaic Idealize.ShloMosaic.ValueIdx

/-- The index a column's sum of squares reads at pixel `k` is (pixel `k`, that column). -/
private theorem idx3_eq (i : S2048.Idx) (k : Fin 16384) : idx_main_v3 i k = ix2 k (i 0) :=
  funext fun a => Fin.ext (by match a with | ⟨0, _⟩ => rfl | ⟨1, _⟩ => rfl)

/-- The same for the second input. -/
private theorem idx7_eq (i : S2048.Idx) (k : Fin 16384) : idx_main_v7 i k = ix2 k (i 0) :=
  funext fun a => Fin.ext (by match a with | ⟨0, _⟩ => rfl | ⟨1, _⟩ => rfl)

/-- The first input's reduction over the pixels, started at 0, is the column's sum of squares. -/
private theorem v3_eq (x0 : (⟨S8x256x128x128, .f32⟩ : BufTy).Contents (Elt Ideal)) (i : S2048.Idx) :
    val_main_v3 (F := Ideal) x0 i = Cert.GramMean.colSq (val_main_v0 (F := Ideal) x0) (i 0) := by
  rw [val_main_v3_apply, val_main_cst_apply, Ideal.ofBits_def, Ideal.ofBits_zero_f32, zero_add]
  unfold Cert.GramMean.colSq
  refine Finset.sum_congr rfl fun k _ => ?_
  rw [val_main_v2_apply, Ideal.mulf_def, idx3_eq]
  rfl

/-- The second input's reduction over the pixels, started at 0, is the column's sum of squares. -/
private theorem v7_eq (x1 : (⟨S8x256x128x128, .f32⟩ : BufTy).Contents (Elt Ideal)) (i : S2048.Idx) :
    val_main_v7 (F := Ideal) x1 i = Cert.GramMean.colSq (val_main_v1 (F := Ideal) x1) (i 0) := by
  rw [val_main_v7_apply, val_main_cst_0_apply, Ideal.ofBits_def, Ideal.ofBits_zero_f32, zero_add]
  unfold Cert.GramMean.colSq
  refine Finset.sum_congr rfl fun k _ => ?_
  rw [val_main_v6_apply, Ideal.mulf_def, idx7_eq]
  rfl

/-- The first input's broadcast denominator at (pixel, channel) is the channel's norm plus ε. -/
private theorem v12_eq (x0 : (⟨S8x256x128x128, .f32⟩ : BufTy).Contents (Elt Ideal)) (i : S16384x2048.Idx) :
    val_main_v12 (F := Ideal) x0 i = Cert.GramMean.den (val_main_v0 (F := Ideal) x0) (i 1) := by
  rw [val_main_v12_apply, val_main_v11_apply, val_main_v5_apply, val_main_v4_apply, val_main_v10_apply,
    val_main_cst_1_apply, Ideal.addf_def, Ideal.hostUnary_sqrt_def, Ideal.ofBits_def, v3_eq]
  rfl

/-- The second input's broadcast denominator at (pixel, channel) is the channel's norm plus ε. -/
private theorem v16_eq (x1 : (⟨S8x256x128x128, .f32⟩ : BufTy).Contents (Elt Ideal)) (i : S16384x2048.Idx) :
    val_main_v16 (F := Ideal) x1 i = Cert.GramMean.den (val_main_v1 (F := Ideal) x1) (i 1) := by
  rw [val_main_v16_apply, val_main_v15_apply, val_main_v9_apply, val_main_v8_apply, val_main_v14_apply,
    val_main_cst_2_apply, Ideal.addf_def, Ideal.hostUnary_sqrt_def, Ideal.ofBits_def, v7_eq]
  rfl

/-- An entry of the Gram matrix: the sum over the pixels of the two column-normalized entries' product. -/
private theorem v18_eq (x0 x1 : (⟨S8x256x128x128, .f32⟩ : BufTy).Contents (Elt Ideal)) (j : S2048x2048.Idx) :
    val_main_v18 (F := Ideal) x0 x1 j
      = ∑ p : Fin 16384,
          Ideal.div (val_main_v0 (F := Ideal) x0 (ix2 p (j 0))) (Cert.GramMean.den (val_main_v0 (F := Ideal) x0) (j 0))
            * Ideal.div (val_main_v1 (F := Ideal) x1 (ix2 p (j 1))) (Cert.GramMean.den (val_main_v1 (F := Ideal) x1) (j 1)) := by
  rw [val_main_v18_apply]
  refine Finset.sum_congr rfl fun k _ => ?_
  have el : lidx_main_v18 j k = ix2 k (j 0) :=
    funext fun a => Fin.ext (by match a with | ⟨0, _⟩ => rfl | ⟨1, _⟩ => rfl)
  have er : ridx_main_v18 j k = ix2 k (j 1) :=
    funext fun a => Fin.ext (by match a with | ⟨0, _⟩ => rfl | ⟨1, _⟩ => rfl)
  rw [val_main_v13_apply, val_main_v17_apply, Ideal.hostDivf_def, Ideal.hostDivf_def, v12_eq, v16_eq, el, er]
  rfl

/-- The reference's scalar result is `tail (gramSum X₁ X₂)` of the two inputs reshaped to pixels by channels. -/
theorem result_eq (x0 x1 : (⟨S8x256x128x128, .f32⟩ : BufTy).Contents (Elt Ideal)) :
    val_main_v21 (F := Ideal) x0 x1
      = fun _ => Cert.GramMean.tail (Cert.GramMean.gramSum (val_main_v0 (F := Ideal) x0) (val_main_v1 (F := Ideal) x1)) := by
  funext i
  rw [val_main_v21_apply, val_main_v20_apply, val_main_v19_apply, val_main_cst_3_apply, val_main_cst_4_apply,
    Ideal.mulf_def, Ideal.hostDivf_def, Ideal.ofBits_def, Ideal.ofBits_def, Ideal.ofBits_zero_f32, zero_add]
  simp only [v18_eq]
  rfl

end Cert.ReferenceIdeal.RefValue

end
-- ==== Proof.NormSq.lean ====
import proofs.«110359_j8693013807330_1_alg».proof.Proof.Gen.KernelIdeal.Frame
import proofs.«110359_j8693013807330_1_alg».proof.Proof.SpecLaws
import Idealize.ShloMosaic.Lib.ValueLayout
import Idealize.ShloMosaic.Lib.Pipeline.Value
import Idealize.ShloMosaic.Lib.ValueIdx
import Idealize.ShloMosaic.PureOps.Ideal.Laws
import Idealize.ShloMosaic.Lib.Tactic

/-!
The first region: per column, the sum over the pixels of the squared entries, accumulated tile by tile.

Each of the 32 grid points sees one tile of 512 rows of each input and adds, to the running [1, 2048] row it
carries, the tile's column sums of squares; the first point starts from zero. After the last point the row holds,
at column `j`, the sum over all 16384 pixels of `X(p, j)²`.
-/

noncomputable section

open Idealize.ShloMosaic Idealize.ShloMosaic.TcCoe Idealize.SL.Sem Idealize.ShloMosaic.ValueIdx
open Idealize.ShloMosaic.Pipeline (Dat)

namespace Cert.KernelIdeal.NormSq

open Cert.KernelIdeal Cert.KernelIdeal.Gen

variable {F : FTy → Type} [FloatOps F]

theorem hz : (![0, 0] : Fin 2 → Nat) = fun _ => 0 := funext fun a => by fin_cases a <;> rfl

/-! ## What one grid point leaves in the two running rows -/

/-- A later point adds the tile's column sums of squares of the first input to the row it found. -/
theorem out_B_2 (c : Dev nD) (i : grid0.Coords) (a1 : Memref sig .tc .vmem S512x2048 .f32) (h1 : a1.IsWhole)
    (a2 : Memref sig .tc .vmem S512x2048 .f32) (h2 : a2.IsWhole) (a3 : Memref sig .tc .vmem S1x2048 .f32) (h3 : a3.IsWhole)
    (a4 : Memref sig .tc .vmem S1x2048 .f32) (h4 : a4.IsWhole) (hc : ¬cond0_0 i)
    (x0 x1 : Vec F S512x2048 .f32) (xo2 xo3 : Vec F S1x2048 .f32) :
    out0_B_2 c i a1 h1 a2 h2 a3 h3 a4 h4 hc x0 x1 xo2 xo3 = k0_pay3 x0 xo2 := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero hz]
  simp only [View.readAt_eq_ld, h1.read_unread, h3.read_unread, View.ld_unit_zero (S := S512x2048) hz,
    View.ld_unit_zero (S := S1x2048) hz]

/-- … and likewise of the second input. -/
theorem out_B_3 (c : Dev nD) (i : grid0.Coords) (a1 : Memref sig .tc .vmem S512x2048 .f32) (h1 : a1.IsWhole)
    (a2 : Memref sig .tc .vmem S512x2048 .f32) (h2 : a2.IsWhole) (a3 : Memref sig .tc .vmem S1x2048 .f32) (h3 : a3.IsWhole)
    (a4 : Memref sig .tc .vmem S1x2048 .f32) (h4 : a4.IsWhole) (hc : ¬cond0_0 i)
    (x0 x1 : Vec F S512x2048 .f32) (xo2 xo3 : Vec F S1x2048 .f32) :
    out0_B_3 c i a1 h1 a2 h2 a3 h3 a4 h4 hc x0 x1 xo2 xo3 = k0_pay4 x1 xo3 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz]
  simp only [View.readAt_eq_ld, h2.read_unread, h4.read_unread, View.ld_unit_zero (S := S512x2048) hz,
    View.ld_unit_zero (S := S1x2048) hz]

/-- The first point stores the zero row, reads it back and adds the tile's column sums of squares to it. -/
theorem out_A_2 (c : Dev nD) (i : grid0.Coords) (a1 : Memref sig .tc .vmem S512x2048 .f32) (h1 : a1.IsWhole)
    (a2 : Memref sig .tc .vmem S512x2048 .f32) (h2 : a2.IsWhole) (a3 : Memref sig .tc .vmem S1x2048 .f32) (h3 : a3.IsWhole)
    (a4 : Memref sig .tc .vmem S1x2048 .f32) (h4 : a4.IsWhole) (hc : cond0_0 i)
    (x0 x1 : Vec F S512x2048 .f32) :
    out0_A_2 c i a1 h1 a2 h2 a3 h3 a4 h4 hc x0 x1 = k0_pay3 x0 (k0_pay1 (F := F)) := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S1x2048) hz, View.readCov_unit_zero (S := S1x2048) _ hz]
  simp only [View.readAt_eq_ld, h1.read_unread, View.ld_unit_zero (S := S512x2048) hz,
    View.ld_unit_zero (S := S1x2048) hz]

theorem out_A_3 (c : Dev nD) (i : grid0.Coords) (a1 : Memref sig .tc .vmem S512x2048 .f32) (h1 : a1.IsWhole)
    (a2 : Memref sig .tc .vmem S512x2048 .f32) (h2 : a2.IsWhole) (a3 : Memref sig .tc .vmem S1x2048 .f32) (h3 : a3.IsWhole)
    (a4 : Memref sig .tc .vmem S1x2048 .f32) (h4 : a4.IsWhole) (hc : cond0_0 i)
    (x0 x1 : Vec F S512x2048 .f32) :
    out0_A_3 c i a1 h1 a2 h2 a3 h3 a4 h4 hc x0 x1 = k0_pay4 x1 (k0_pay2 (F := F)) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x2048) hz, View.readCov_unit_zero (S := S1x2048) _ hz]
  simp only [View.readAt_eq_ld, h2.read_unread, View.ld_unit_zero (S := S512x2048) hz,
    View.ld_unit_zero (S := S1x2048) hz]

/-! ## The updates read at a column, and the accumulation over the grid -/

/-- Inserting row `r` into the column index `j` gives the entry `(r, j)`. -/
theorem lift0 (j : Fin 2048) (r : Fin 512) :
    (reduces_S512x2048_S2048 : S512x2048.Reduces [0] S2048).lift (ix1 j) r = ix2 r j :=
  funext fun a => Fin.ext (by match a with | ⟨0, _⟩ => rfl | ⟨1, _⟩ => rfl)

/-- The first row's update at column `j`: what it held plus the tile's column sum of squares. -/
theorem pay3_apply (x0 : Vec Ideal S512x2048 .f32) (acc : Vec Ideal S1x2048 .f32) (u : Fin 1) (j : Fin 2048) :
    k0_pay3 (F := Ideal) x0 acc (ix2 u j) = acc (ix2 u j) + ∑ r : Fin 512, x0 (ix2 r j) * x0 (ix2 r j) := by
  unfold k0_pay3
  refine (addf_apply _ _ _).trans ?_
  refine congrArg₂ (· + ·) (congrFun (shapeCast_self acc _) (ix2 u j)) ?_
  refine (shapeCast_a_1a_apply _ _ u j).trans ?_
  refine (Ideal.multiReduction_add_single _ _ _ _ _ (ix1 j)).trans ?_
  refine Finset.sum_congr rfl fun r _ => ?_
  rw [lift0 j r, mulf_apply, shapeCast_self]

/-- The second row's update, likewise. -/
theorem pay4_apply (x1 : Vec Ideal S512x2048 .f32) (acc : Vec Ideal S1x2048 .f32) (u : Fin 1) (j : Fin 2048) :
    k0_pay4 (F := Ideal) x1 acc (ix2 u j) = acc (ix2 u j) + ∑ r : Fin 512, x1 (ix2 r j) * x1 (ix2 r j) := by
  unfold k0_pay4
  refine (addf_apply _ _ _).trans ?_
  refine congrArg₂ (· + ·) (congrFun (shapeCast_self acc _) (ix2 u j)) ?_
  refine (shapeCast_a_1a_apply _ _ u j).trans ?_
  refine (Ideal.multiReduction_add_single _ _ _ _ _ (ix1 j)).trans ?_
  refine Finset.sum_congr rfl fun r _ => ?_
  rw [lift0 j r, mulf_apply, shapeCast_self]

/-- The reset rows are zero. -/
theorem pay1_apply (i : S1x2048.Idx) : k0_pay1 (F := Ideal) i = 0 := by
  unfold k0_pay1
  exact Ideal.ofBits_zero_f32
theorem pay2_apply (i : S1x2048.Idx) : k0_pay2 (F := Ideal) i = 0 := by
  unfold k0_pay2
  exact Ideal.ofBits_zero_f32

section Run
variable (V : (c : Dev nD) → (b : Ref sig .tc) → Buf (Elt Ideal) ((c : Thread nD τ).loc b))

/-- The two inputs as the region finds them, and a point's tile of each. -/
abbrev X1 (c : Dev nD) : Vec Ideal S16384x2048 .f32 := V c main_v0
abbrev X2 (c : Dev nD) : Vec Ideal S16384x2048 .f32 := V c main_v1
abbrev tile1 (c : Dev nD) (t : Fin cfg0.N) : Vec Ideal S512x2048 .f32 := iblk0 V c 0 t
abbrev tile2 (c : Dev nD) (t : Fin cfg0.N) : Vec Ideal S512x2048 .f32 := iblk0 V c 1 t

/-- Point `t`'s input blocks are block row `t`, block column 0. -/
theorem idx0 : ∀ t : Fin cfg0.N, (win0_0.index t 0 = t.val ∧ win0_0.index t 1 = 0) ∧ (win0_1.index t 0 = t.val ∧ win0_1.index t 1 = 0) :=
  (by decide +kernel : ∀ t : Fin grid0.N, (win0_0.index t 0 = t.val ∧ win0_0.index t 1 = 0) ∧ (win0_1.index t 0 = t.val ∧ win0_1.index t 1 = 0))

/-- Row `r` of tile `t` is pixel `512 t + r`. -/
theorem tile1_apply (c : Dev nD) (t : Fin cfg0.N) (r : Fin 512) (j : Fin 2048) (h : 512 * t.val + r.val < 16384) :
    tile1 V c t (ix2 r j) = X1 V c (ix2 ⟨512 * t.val + r.val, h⟩ j) := by
  unfold tile1 iblk0
  rw [View.read_apply]
  show V c main_v0 _ = V c main_v0 _
  congr 1
  funext a
  apply Fin.ext
  match a with
  | ⟨0, _⟩ => show win0_0.index t 0 * 512 + 1 * r.val = 512 * t.val + r.val; rw [(idx0 t).1.1]; omega
  | ⟨1, _⟩ => show win0_0.index t 1 * 2048 + 1 * j.val = j.val; rw [(idx0 t).1.2]; omega

theorem tile2_apply (c : Dev nD) (t : Fin cfg0.N) (r : Fin 512) (j : Fin 2048) (h : 512 * t.val + r.val < 16384) :
    tile2 V c t (ix2 r j) = X2 V c (ix2 ⟨512 * t.val + r.val, h⟩ j) := by
  unfold tile2 iblk0
  rw [View.read_apply]
  show V c main_v1 _ = V c main_v1 _
  congr 1
  funext a
  apply Fin.ext
  match a with
  | ⟨0, _⟩ => show win0_1.index t 0 * 512 + 1 * r.val = 512 * t.val + r.val; rw [(idx0 t).2.1]; omega
  | ⟨1, _⟩ => show win0_1.index t 1 * 2048 + 1 * j.val = j.val; rw [(idx0 t).2.2]; omega

/-- Tile `s`'s column sums of squares (zero past the grid, never used there). -/
def part1 (c : Dev nD) (s : ℕ) (j : Fin 2048) : EReal :=
  if h : s < cfg0.N then ∑ r : Fin 512, tile1 V c ⟨s, h⟩ (ix2 r j) * tile1 V c ⟨s, h⟩ (ix2 r j) else 0
def part2 (c : Dev nD) (s : ℕ) (j : Fin 2048) : EReal :=
  if h : s < cfg0.N then ∑ r : Fin 512, tile2 V c ⟨s, h⟩ (ix2 r j) * tile2 V c ⟨s, h⟩ (ix2 r j) else 0

/-- After point `n` the two running rows hold, at column `j`, the sums of the tiles' parts up to `n`. -/
theorem outsAt_eq (c : Dev nD) : ∀ (n : ℕ) (h : n < cfg0.N) (u : Fin 1) (j : Fin 2048),
    (outsAt0 V c n h).1 (ix2 u j) = ∑ s ∈ Finset.range (n + 1), part1 V c s j
    ∧ (outsAt0 V c n h).2 (ix2 u j) = ∑ s ∈ Finset.range (n + 1), part2 V c s j
  | 0, h, u, j => by
    rw [outsAt0_A V c ⟨0, h⟩ rfl]
    dsimp only
    rw [out_A_2, out_A_3, pay3_apply, pay4_apply, pay1_apply, pay2_apply]
    simp only [zero_add, Finset.sum_range_one]
    unfold part1 part2
    rw [dif_pos h, dif_pos h]
    exact ⟨rfl, rfl⟩
  | n + 1, h, u, j => by
    have hN : cfg0.N = 32 := N_0
    have hB : ¬(⟨n + 1, h⟩ : Fin cfg0.N).val % 32 = 0 := by dsimp only; omega
    rw [outsAt0_B V c ⟨n + 1, h⟩ hB]
    dsimp only
    rw [out_B_2, out_B_3, pay3_apply, pay4_apply]
    have ih := outsAt_eq c n (Nat.lt_of_succ_lt h) u j
    rw [Finset.sum_range_succ _ (n + 1), Finset.sum_range_succ _ (n + 1)]
    refine ⟨congrArg₂ (· + ·) ih.1 ?_, congrArg₂ (· + ·) ih.2 ?_⟩
    · unfold part1; rw [dif_pos h]
    · unfold part2; rw [dif_pos h]

/-- All 32 parts of a column add up to its sum of squares over all 16384 pixels. -/
theorem parts1_sum (c : Dev nD) (j : Fin 2048) :
    ∑ s ∈ Finset.range 32, part1 V c s j = Cert.GramMean.colSq (X1 V c) j := by
  have hN : cfg0.N = 32 := N_0
  rw [Cert.GramMean.colSq, Cert.GramMean.sum_tiles, Finset.sum_range]
  refine Finset.sum_congr rfl fun t _ => ?_
  unfold part1
  rw [dif_pos (by rw [hN]; exact t.isLt)]
  refine Finset.sum_congr rfl fun r _ => ?_
  rw [tile1_apply V c ⟨t.val, by rw [hN]; exact t.isLt⟩ r j (by have := t.isLt; have := r.isLt; dsimp only; omega)]
theorem parts2_sum (c : Dev nD) (j : Fin 2048) :
    ∑ s ∈ Finset.range 32, part2 V c s j = Cert.GramMean.colSq (X2 V c) j := by
  have hN : cfg0.N = 32 := N_0
  rw [Cert.GramMean.colSq, Cert.GramMean.sum_tiles, Finset.sum_range]
  refine Finset.sum_congr rfl fun t _ => ?_
  unfold part2
  rw [dif_pos (by rw [hN]; exact t.isLt)]
  refine Finset.sum_congr rfl fun r _ => ?_
  rw [tile2_apply V c ⟨t.val, by rw [hN]; exact t.isLt⟩ r j (by have := t.isLt; have := r.isLt; dsimp only; omega)]

/-- The last grid point. -/
abbrev tLast : Fin cfg0.N := ⟨31, by rw [show cfg0.N = 32 from N_0]; decide⟩

/-- The rows the region leaves: each column's sum of squares over all pixels. -/
abbrev row1 (c : Dev nD) : Buf (Elt Ideal) ((c : Thread nD τ).loc main_v2_0) := fun i => Cert.GramMean.colSq (X1 V c) (i 1)
abbrev row2 (c : Dev nD) : Buf (Elt Ideal) ((c : Thread nD τ).loc main_v2_1) := fun i => Cert.GramMean.colSq (X2 V c) (i 1)

/-- After the last point the first row is complete; -/
theorem last1 (c : Dev nD) : (outsAt0 V c 31 tLast.isLt).1 = row1 V c := by
  funext i
  obtain ⟨u, j, rfl⟩ : ∃ (u : Fin 1) (j : Fin 2048), i = ix2 u j := ⟨i 0, i 1, eq_ix2 i⟩
  exact ((outsAt_eq V c 31 tLast.isLt u j).1).trans (parts1_sum V c j)
/-- and so is the second. -/
theorem last2 (c : Dev nD) : (outsAt0 V c 31 tLast.isLt).2 = row2 V c := by
  funext i
  obtain ⟨u, j, rfl⟩ : ∃ (u : Fin 1) (j : Fin 2048), i = ix2 u j := ⟨i 0, i 1, eq_ix2 i⟩
  exact ((outsAt_eq V c 31 tLast.isLt u j).2).trans (parts2_sum V c j)

/-- The one write-back, at the last point, writes the finished row. -/
theorem flushed2_eq (c : Dev nD) (t : Fin cfg0.N) (hf : (cfg0.win 2).flush t = true) :
    (dat0 V c).flushed 2 t = ((cfg0.win 2).blk t).view.read (Elt Ideal) (row1 V c) := by
  have hN : cfg0.N = 32 := N_0
  have h31 : t.val = 31 := by have := (flush0_2 t).mp hf; have := t.isLt; omega
  obtain rfl : t = tLast := Fin.ext h31
  show (cfg0.win 2).cut (grid0.coords tLast) ((dat0 V c).after 2 tLast) = _
  rw [after0_2, last1]
  have hz' : (fun a => win0_2.index tLast a * main_v2_0.ty.shape.size a) = fun _ => 0 := funext fun a => by fin_cases a <;> decide
  exact (Memref.read_access_unit_zero (Elt Ideal) main_v2_0 hz' (fun a => by rw [congrFun hz' a]; simp) (row1 V c)).symm

/-- The first result array ends holding the first input's column sums of squares. -/
theorem final2 (c : Dev nD) : (dat0 V c).arrAt 2 cfg0.N = row1 V c :=
  (dat0 V c).arrAt_eq_of_cover 2 (row1 V c) (flushed2_eq V c) fun i =>
    ⟨tLast, (flush0_2 tLast).mpr rfl, by
      show i ∈ ((View.whole main_v2_0).slice (win0_2.rect tLast)).set
      rw [View.set_slice_whole, Rect.mem_set_unit]
      intro a
      have h0 : (i 0 : Nat) < 1 := (i 0).isLt
      have h1 : (i 1 : Nat) < 2048 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 2048 from by decide +kernel]; omega⟩

theorem flushed3_eq (c : Dev nD) (t : Fin cfg0.N) (hf : (cfg0.win 3).flush t = true) :
    (dat0 V c).flushed 3 t = ((cfg0.win 3).blk t).view.read (Elt Ideal) (row2 V c) := by
  have hN : cfg0.N = 32 := N_0
  have h31 : t.val = 31 := by have := (flush0_3 t).mp hf; have := t.isLt; omega
  obtain rfl : t = tLast := Fin.ext h31
  show (cfg0.win 3).cut (grid0.coords tLast) ((dat0 V c).after 3 tLast) = _
  rw [after0_3, last2]
  have hz' : (fun a => win0_3.index tLast a * main_v2_1.ty.shape.size a) = fun _ => 0 := funext fun a => by fin_cases a <;> decide
  exact (Memref.read_access_unit_zero (Elt Ideal) main_v2_1 hz' (fun a => by rw [congrFun hz' a]; simp) (row2 V c)).symm

/-- The second result array ends holding the second input's column sums of squares. -/
theorem final3 (c : Dev nD) : (dat0 V c).arrAt 3 cfg0.N = row2 V c :=
  (dat0 V c).arrAt_eq_of_cover 3 (row2 V c) (flushed3_eq V c) fun i =>
    ⟨tLast, (flush0_3 tLast).mpr rfl, by
      show i ∈ ((View.whole main_v2_1).slice (win0_3.rect tLast)).set
      rw [View.set_slice_whole, Rect.mem_set_unit]
      intro a
      have h0 : (i 0 : Nat) < 1 := (i 0).isLt
      have h1 : (i 1 : Nat) < 2048 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 2048 from by decide +kernel]; omega⟩

/-- The inputs' arrays are as the region found them. -/
theorem kept0 (c : Dev nD) : (dat0 V c).arrAt 0 cfg0.N = X1 V c := (dat0 V c).arrAt_in 0 rfl _
theorem kept1 (c : Dev nD) : (dat0 V c).arrAt 1 cfg0.N = X2 V c := (dat0 V c).arrAt_in 1 rfl _

end Run

end Cert.KernelIdeal.NormSq

end
-- ==== Proof.RowDot.lean ====
import proofs.«110359_j8693013807330_1_alg».proof.Proof.Gen.KernelIdeal.Frame
import proofs.«110359_j8693013807330_1_alg».proof.Proof.SpecLaws
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-!
The second region: the sum over the pixels of the product of the two inputs' scaled row sums, accumulated tile by tile.

Each of the 32 grid points sees one tile of 512 rows of each input and the two [1, 2048] rows of per-column factors.
It scales each entry by its column's factor, sums each row over the 2048 columns, multiplies the two row sums, sums
the 512 products, and adds that to the running [1, 1] scalar it carries; the first point starts from zero. After the
last point the scalar is the sum over all 16384 pixels of `(∑_c X₁(p,c) f₁(c)) · (∑_d X₂(p,d) f₂(d))`.
-/

noncomputable section
open Idealize.ShloMosaic Idealize.ShloMosaic.TcCoe Idealize.SL.Sem Idealize.ShloMosaic.ValueIdx
open Idealize.ShloMosaic.Pipeline (Dat)

namespace Cert.KernelIdeal.RowDot
open Cert.KernelIdeal Cert.KernelIdeal.Gen

section Pieces
variable {F : FTy → Type} [FloatOps F]

theorem hz : (![0, 0] : Fin 2 → Nat) = fun _ => 0 := funext fun a => by fin_cases a <;> rfl

/-- A later point adds its tile's sum of row-sum products to the scalar it found. -/
theorem out_B (c : Dev nD) (i : grid1.Coords) (a1 : Memref sig .tc .vmem S512x2048 .f32) (h1 : a1.IsWhole)
    (a2 : Memref sig .tc .vmem S512x2048 .f32) (h2 : a2.IsWhole) (a3 : Memref sig .tc .vmem S1x2048 .f32) (h3 : a3.IsWhole)
    (a4 : Memref sig .tc .vmem S1x2048 .f32) (h4 : a4.IsWhole) (a5 : Memref sig .tc .vmem S1x1 .f32) (h5 : a5.IsWhole)
    (hc : ¬cond1_0 i) (x0 x1 : Vec F S512x2048 .f32) (x2 x3 : Vec F S1x2048 .f32) (xo : Vec F S1x1 .f32) :
    out1_B_4 c i a1 h1 a2 h2 a3 h3 a4 h4 a5 h5 hc x0 x1 x2 x3 xo = k1_pay2 x0 x1 x2 x3 xo := by
  unfold out1_B_4
  rw [View.read_writes_eq_canon _ _ _ (cover1_B_4 c i a1 h1 a2 h2 a3 h3 a4 h4 a5 h5 hc x0 x1 x2 x3 xo)]
  unfold kernelRun1_B
  dsimp only
  sl_unfold_words
  rw [View.canon_unit_zero hz]
  simp only [View.readAt_eq_ld, h1.read_unread, h2.read_unread, h3.read_unread, h4.read_unread, h5.read_unread,
    View.ld_unit_zero (S := S512x2048) hz, View.ld_unit_zero (S := S1x2048) hz, View.ld_unit_zero (S := S1x1) hz]

/-- The first point stores zero, reads it back and adds its tile's sum of row-sum products. -/
theorem out_A (c : Dev nD) (i : grid1.Coords) (a1 : Memref sig .tc .vmem S512x2048 .f32) (h1 : a1.IsWhole)
    (a2 : Memref sig .tc .vmem S512x2048 .f32) (h2 : a2.IsWhole) (a3 : Memref sig .tc .vmem S1x2048 .f32) (h3 : a3.IsWhole)
    (a4 : Memref sig .tc .vmem S1x2048 .f32) (h4 : a4.IsWhole) (a5 : Memref sig .tc .vmem S1x1 .f32) (h5 : a5.IsWhole)
    (hc : cond1_0 i) (x0 x1 : Vec F S512x2048 .f32) (x2 x3 : Vec F S1x2048 .f32) :
    out1_A_4 c i a1 h1 a2 h2 a3 h3 a4 h4 a5 h5 hc x0 x1 x2 x3 = k1_pay2 x0 x1 x2 x3 (k1_pay1 (F := F)) := by
  unfold out1_A_4
  rw [View.read_writes_eq_canon _ _ _ (cover1_A_4 c i a1 h1 a2 h2 a3 h3 a4 h4 a5 h5 hc x0 x1 x2 x3)]
  unfold kernelRun1_A
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S512x2048) hz, View.ld_unit_zero (S := S1x2048) hz, View.ld_unit_zero (S := S1x1) hz]

end Pieces

/-! ## The payload at its one index -/

theorem liftRow (k : Fin 512) (cc : Fin 2048) :
    (reduces_S512x2048_S512 : S512x2048.Reduces [1] S512).lift (ix1 k) cc = ix2 k cc :=
  funext fun a => Fin.ext (by match a with | ⟨0, _⟩ => rfl | ⟨1, _⟩ => rfl)
theorem liftCol (v : Fin 1) (k : Fin 512) :
    (reduces_S512x1_S1 : S512x1.Reduces [0] S1).lift (ix1 v) k = ix2 k v :=
  funext fun a => Fin.ext (by match a with | ⟨0, _⟩ => rfl | ⟨1, _⟩ => rfl)

/-- A length-`a` vector viewed as an `[a, 1]` column reads, at `(k, v)`, the vector at `k`. -/
theorem col_apply {α : Type} (x : S512.Idx → α) (k : Fin 512) (v : Fin 1) :
    shapeCast S512x1 x shapeCasts_S512_S512x1 (ix2 k v) = x (ix1 k) :=
  shapeCast_apply x shapeCasts_S512_S512x1 _ _ (by
    have hv : v.val = 0 := by omega
    rw [Shape.rowMajor_val_two, Shape.rowMajor_val_one]
    show k.val = k.val * 1 + v.val
    omega)

/-- A tile's row sum of entries scaled by the per-column factors. -/
theorem rowsum_apply (x : Vec Ideal S512x2048 .f32) (f : Vec Ideal S1x2048 .f32) (k : Fin 512) (v : Fin 1) :
    shapeCast S512x1 (multiReduction (F := Ideal) .add [1] S512 (mulf (shapeCast S512x2048 x shapeCasts_S512x2048_S512x2048)
        (broadcastTo S512x2048 (shapeCast S1x2048 f shapeCasts_S1x2048_S1x2048) broadcasts_S1x2048_S512x2048))
        0x00000000#32 reduces_S512x2048_S512 (.inl rfl) rfl) shapeCasts_S512_S512x1 (ix2 k v)
      = ∑ cc : Fin 2048, x (ix2 k cc) * f (ix2 (0 : Fin 1) cc) := by
  refine (col_apply _ k v).trans ?_
  refine (Ideal.multiReduction_add_single _ _ _ _ _ (ix1 k)).trans ?_
  refine Finset.sum_congr rfl fun cc _ => ?_
  rw [liftRow k cc, mulf_apply, shapeCast_self, shapeCast_self]
  exact congrArg (x (ix2 k cc) * ·) (broadcastTo_1b_ab_apply (a := 512) (b := 2048) f broadcasts_S1x2048_S512x2048 k cc)

theorem pay2_apply (x0 x1 : Vec Ideal S512x2048 .f32) (x2 x3 : Vec Ideal S1x2048 .f32) (acc : Vec Ideal S1x1 .f32)
    (u v : Fin 1) :
    k1_pay2 (F := Ideal) x0 x1 x2 x3 acc (ix2 u v)
      = acc (ix2 u v) + ∑ k : Fin 512, (∑ cc : Fin 2048, x0 (ix2 k cc) * x2 (ix2 (0 : Fin 1) cc))
          * (∑ d : Fin 2048, x1 (ix2 k d) * x3 (ix2 (0 : Fin 1) d)) := by
  unfold k1_pay2
  refine (addf_apply _ _ _).trans ?_
  refine congrArg₂ (· + ·) (congrFun (shapeCast_self acc _) (ix2 u v)) ?_
  refine (shapeCast_a_1a_apply _ _ u v).trans ?_
  refine (Ideal.multiReduction_add_single _ _ _ _ _ (ix1 v)).trans ?_
  refine Finset.sum_congr rfl fun k _ => ?_
  rw [liftCol v k, mulf_apply]
  exact congrArg₂ (· * ·) (rowsum_apply x0 x2 k v) (rowsum_apply x1 x3 k v)

theorem pay1_apply (i : S1x1.Idx) : k1_pay1 (F := Ideal) i = 0 := by
  unfold k1_pay1
  exact Ideal.ofBits_zero_f32

/-! ## The accumulation over the grid -/

section Run
variable (V : (c : Dev nD) → (b : Ref sig .tc) → Buf (Elt Ideal) ((c : Thread nD τ).loc b))

/-- The two inputs and the two rows of per-column factors as the region finds them; a point's blocks of each. -/
abbrev X1 (c : Dev nD) : Vec Ideal S16384x2048 .f32 := V c main_v0
abbrev X2 (c : Dev nD) : Vec Ideal S16384x2048 .f32 := V c main_v1
abbrev f1 (c : Dev nD) : Vec Ideal S1x2048 .f32 := V c main_v7
abbrev f2 (c : Dev nD) : Vec Ideal S1x2048 .f32 := V c main_v12
abbrev tile1 (c : Dev nD) (t : Fin cfg1.N) : Vec Ideal S512x2048 .f32 := iblk1 V c 0 t
abbrev tile2 (c : Dev nD) (t : Fin cfg1.N) : Vec Ideal S512x2048 .f32 := iblk1 V c 1 t
abbrev fac1 (c : Dev nD) (t : Fin cfg1.N) : Vec Ideal S1x2048 .f32 := iblk1 V c 2 t
abbrev fac2 (c : Dev nD) (t : Fin cfg1.N) : Vec Ideal S1x2048 .f32 := iblk1 V c 3 t

/-- Point `t`'s input tiles are block row `t`; the factor rows are the one block of their arrays. -/
theorem idx1 : ∀ t : Fin cfg1.N, ((win1_0.index t 0 = t.val ∧ win1_0.index t 1 = 0) ∧ (win1_1.index t 0 = t.val ∧ win1_1.index t 1 = 0))
      ∧ ((win1_2.index t 0 = 0 ∧ win1_2.index t 1 = 0) ∧ (win1_3.index t 0 = 0 ∧ win1_3.index t 1 = 0)) :=
  (by decide +kernel : ∀ t : Fin grid1.N, ((win1_0.index t 0 = t.val ∧ win1_0.index t 1 = 0) ∧ (win1_1.index t 0 = t.val ∧ win1_1.index t 1 = 0))
      ∧ ((win1_2.index t 0 = 0 ∧ win1_2.index t 1 = 0) ∧ (win1_3.index t 0 = 0 ∧ win1_3.index t 1 = 0)))

/-- Row `r` of tile `t` is pixel `512 t + r`. -/
theorem tile1_apply (c : Dev nD) (t : Fin cfg1.N) (r : Fin 512) (j : Fin 2048) (h : 512 * t.val + r.val < 16384) :
    tile1 V c t (ix2 r j) = X1 V c (ix2 ⟨512 * t.val + r.val, h⟩ j) := by
  unfold tile1 iblk1
  rw [View.read_apply]
  show V c main_v0 _ = V c main_v0 _
  congr 1
  funext a
  apply Fin.ext
  match a with
  | ⟨0, _⟩ => show win1_0.index t 0 * 512 + 1 * r.val = 512 * t.val + r.val; rw [(idx1 t).1.1.1]; omega
  | ⟨1, _⟩ => show win1_0.index t 1 * 2048 + 1 * j.val = j.val; rw [(idx1 t).1.1.2]; omega
theorem tile2_apply (c : Dev nD) (t : Fin cfg1.N) (r : Fin 512) (j : Fin 2048) (h : 512 * t.val + r.val < 16384) :
    tile2 V c t (ix2 r j) = X2 V c (ix2 ⟨512 * t.val + r.val, h⟩ j) := by
  unfold tile2 iblk1
  rw [View.read_apply]
  show V c main_v1 _ = V c main_v1 _
  congr 1
  funext a
  apply Fin.ext
  match a with
  | ⟨0, _⟩ => show win1_1.index t 0 * 512 + 1 * r.val = 512 * t.val + r.val; rw [(idx1 t).1.2.1]; omega
  | ⟨1, _⟩ => show win1_1.index t 1 * 2048 + 1 * j.val = j.val; rw [(idx1 t).1.2.2]; omega
/-- Every point sees the whole factor rows. -/
theorem fac1_apply (c : Dev nD) (t : Fin cfg1.N) (u : Fin 1) (j : Fin 2048) :
    fac1 V c t (ix2 u j) = f1 V c (ix2 u j) := by
  unfold fac1 iblk1
  rw [View.read_apply]
  show V c main_v7 _ = V c main_v7 _
  congr 1
  funext a
  apply Fin.ext
  match a with
  | ⟨0, _⟩ => show win1_2.index t 0 * 1 + 1 * u.val = u.val; rw [(idx1 t).2.1.1]; omega
  | ⟨1, _⟩ => show win1_2.index t 1 * 2048 + 1 * j.val = j.val; rw [(idx1 t).2.1.2]; omega
theorem fac2_apply (c : Dev nD) (t : Fin cfg1.N) (u : Fin 1) (j : Fin 2048) :
    fac2 V c t (ix2 u j) = f2 V c (ix2 u j) := by
  unfold fac2 iblk1
  rw [View.read_apply]
  show V c main_v12 _ = V c main_v12 _
  congr 1
  funext a
  apply Fin.ext
  match a with
  | ⟨0, _⟩ => show win1_3.index t 0 * 1 + 1 * u.val = u.val; rw [(idx1 t).2.2.1]; omega
  | ⟨1, _⟩ => show win1_3.index t 1 * 2048 + 1 * j.val = j.val; rw [(idx1 t).2.2.2]; omega

/-- Tile `s`'s sum over its rows of the product of the two scaled row sums (zero past the grid, never used there). -/
def part (c : Dev nD) (s : ℕ) : EReal :=
  if h : s < cfg1.N then
    ∑ k : Fin 512, (∑ cc : Fin 2048, tile1 V c ⟨s, h⟩ (ix2 k cc) * fac1 V c ⟨s, h⟩ (ix2 (0 : Fin 1) cc))
      * (∑ d : Fin 2048, tile2 V c ⟨s, h⟩ (ix2 k d) * fac2 V c ⟨s, h⟩ (ix2 (0 : Fin 1) d))
  else 0

/-- After point `n` the running scalar is the sum of the tiles' parts up to `n`. -/
theorem outsAt_eq (c : Dev nD) : ∀ (n : ℕ) (h : n < cfg1.N) (u v : Fin 1),
    outsAt1 V c n h (ix2 u v) = ∑ s ∈ Finset.range (n + 1), part V c s
  | 0, h, u, v => by
    rw [outsAt1_A V c ⟨0, h⟩ rfl, out_A, pay2_apply, pay1_apply]
    simp only [zero_add, Finset.sum_range_one]
    unfold part
    rw [dif_pos h]
  | n + 1, h, u, v => by
    have hN : cfg1.N = 32 := N_1
    have hB : ¬(⟨n + 1, h⟩ : Fin cfg1.N).val % 32 = 0 := by dsimp only; omega
    rw [outsAt1_B V c ⟨n + 1, h⟩ hB, out_B, pay2_apply]
    have ih := outsAt_eq c n (Nat.lt_of_succ_lt h) u v
    rw [Finset.sum_range_succ _ (n + 1)]
    refine congrArg₂ (· + ·) ih ?_
    unfold part; rw [dif_pos h]

/-- The scalar over all pixels: the sum of the products of the two scaled row sums. -/
def total (c : Dev nD) : EReal :=
  ∑ p : Fin 16384, (∑ cc : Fin 2048, X1 V c (ix2 p cc) * f1 V c (ix2 (0 : Fin 1) cc))
    * (∑ d : Fin 2048, X2 V c (ix2 p d) * f2 V c (ix2 (0 : Fin 1) d))

/-- All 32 parts add up to the scalar over all 16384 pixels. -/
theorem parts_sum (c : Dev nD) : ∑ s ∈ Finset.range 32, part V c s = total V c := by
  have hN : cfg1.N = 32 := N_1
  rw [total, Cert.GramMean.sum_tiles, Finset.sum_range]
  refine Finset.sum_congr rfl fun t _ => ?_
  unfold part
  rw [dif_pos (by rw [hN]; exact t.isLt)]
  refine Finset.sum_congr rfl fun r _ => ?_
  have hb : 512 * t.val + r.val < 16384 := by have := t.isLt; have := r.isLt; omega
  refine congrArg₂ (· * ·) (Finset.sum_congr rfl fun cc _ => ?_) (Finset.sum_congr rfl fun d _ => ?_)
  · rw [tile1_apply V c ⟨t.val, by rw [hN]; exact t.isLt⟩ r cc hb, fac1_apply]
  · rw [tile2_apply V c ⟨t.val, by rw [hN]; exact t.isLt⟩ r d hb, fac2_apply]

/-- The last grid point. -/
abbrev tLast : Fin cfg1.N := ⟨31, by rw [show cfg1.N = 32 from N_1]; decide⟩

/-- What the region leaves in its [1, 1] result. -/
abbrev scalar (c : Dev nD) : Buf (Elt Ideal) ((c : Thread nD τ).loc main_v13) := fun _ => total V c

/-- After the last point the running scalar is complete. -/
theorem last (c : Dev nD) : outsAt1 V c 31 tLast.isLt = scalar V c := by
  funext i
  obtain ⟨u, v, rfl⟩ : ∃ (u v : Fin 1), i = ix2 u v := ⟨i 0, i 1, eq_ix2 i⟩
  exact (outsAt_eq V c 31 tLast.isLt u v).trans (parts_sum V c)

/-- The one write-back, at the last point, writes the finished scalar. -/
theorem flushed4_eq (c : Dev nD) (t : Fin cfg1.N) (hf : (cfg1.win 4).flush t = true) :
    (dat1 V c).flushed 4 t = ((cfg1.win 4).blk t).view.read (Elt Ideal) (scalar V c) := by
  have hN : cfg1.N = 32 := N_1
  have h31 : t.val = 31 := by have := (flush1_4 t).mp hf; have := t.isLt; omega
  obtain rfl : t = tLast := Fin.ext h31
  show (cfg1.win 4).cut (grid1.coords tLast) ((dat1 V c).after 4 tLast) = _
  rw [after1_4, last]
  have hz' : (fun a => win1_4.index tLast a * main_v13.ty.shape.size a) = fun _ => 0 := funext fun a => by fin_cases a <;> decide
  exact (Memref.read_access_unit_zero (Elt Ideal) main_v13 hz' (fun a => by rw [congrFun hz' a]; simp) (scalar V c)).symm

/-- The result array ends holding the scalar. -/
theorem final4 (c : Dev nD) : (dat1 V c).arrAt 4 cfg1.N = scalar V c :=
  (dat1 V c).arrAt_eq_of_cover 4 (scalar V c) (flushed4_eq V c) fun i =>
    ⟨tLast, (flush1_4 tLast).mpr rfl, by
      show i ∈ ((View.whole main_v13).slice (win1_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win1_4.index tLast 0 * win1_4.size 0 ≤ (i 0 : Nat) ∧ (i 0 : Nat) < win1_4.index tLast 0 * win1_4.size 0 + win1_4.xsize (grid1.coords tLast) 0
                  rw [show win1_4.index tLast 0 * win1_4.size 0 = 0 from by decide +kernel, show win1_4.xsize (grid1.coords tLast) 0 = 1 from by decide +kernel]; omega
      | ⟨1, _⟩ => show win1_4.index tLast 1 * win1_4.size 1 ≤ (i 1 : Nat) ∧ (i 1 : Nat) < win1_4.index tLast 1 * win1_4.size 1 + win1_4.xsize (grid1.coords tLast) 1
                  rw [show win1_4.index tLast 1 * win1_4.size 1 = 0 from by decide +kernel, show win1_4.xsize (grid1.coords tLast) 1 = 1 from by decide +kernel]; omega⟩

end Run

end Cert.KernelIdeal.RowDot
end
-- ==== Proof.KernelValue.lean ====
import proofs.«110359_j8693013807330_1_alg».proof.Proof.KernelRun
import proofs.«110359_j8693013807330_1_alg».proof.Proof.NormSq
import proofs.«110359_j8693013807330_1_alg».proof.Proof.RowDot
import Idealize.ShloMosaic.Lib.StableHlo.Run

/-!
The idealized kernel's result, through @main's five stretches.

The two reshapes give the inputs as 16384 pixels by 2048 channels, `A₁` and `A₂`. The first region leaves each
input's column sums of squares; the host operations between the regions turn them into the per-column reciprocals
`1 / (√colSq + ε)`; the second region, with those as its factor rows, leaves the sum over the pixels of the product of
the two scaled row sums, that is `rowDot A₁ A₂`; the closing host operations divide by 2²² and square.
-/

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen

variable (m : (ℓ : Loc nD τ sig) → Buf (Elt Ideal) ℓ) (ρ : Dev nD → PrngReg)

/-- The inputs reshaped to pixels by channels. -/
abbrev A1 (c : Dev nD) : Vec Ideal S16384x2048 .f32 :=
  shapeCast S16384x2048 (m ((c : Thread nD τ).loc main_arg0)) shapeCasts_S8x256x128x128_S16384x2048
abbrev A2 (c : Dev nD) : Vec Ideal S16384x2048 .f32 :=
  shapeCast S16384x2048 (m ((c : Thread nD τ).loc main_arg1)) shapeCasts_S8x256x128x128_S16384x2048

/-! ## Entering the first region -/

theorem V1_v0 (c : Dev nD) : V1 m ρ c main_v0 = A1 m c := by
  show StableHlo.after hostOps0 (W0 m ρ c) (Proc.devRef .tc main_v0) = _
  after_results
  rfl
theorem V1_v1 (c : Dev nD) : V1 m ρ c main_v1 = A2 m c := by
  show StableHlo.after hostOps0 (W0 m ρ c) (Proc.devRef .tc main_v1) = _
  after_results
  rfl

/-! ## Entering the second region -/

theorem V3_v0 (c : Dev nD) : V3 m ρ c main_v0 = A1 m c := by
  show StableHlo.after hostOps1 (W2 m ρ c) (Proc.devRef .tc main_v0) = _
  after_results
  exact ((W2_arr m ρ c 0).trans (NormSq.kept0 (V1 m ρ) c)).trans (V1_v0 m ρ c)
theorem V3_v1 (c : Dev nD) : V3 m ρ c main_v1 = A2 m c := by
  show StableHlo.after hostOps1 (W2 m ρ c) (Proc.devRef .tc main_v1) = _
  after_results
  exact ((W2_arr m ρ c 1).trans (NormSq.kept1 (V1 m ρ) c)).trans (V1_v1 m ρ c)

theorem V3_v7 (c : Dev nD) : V3 m ρ c main_v7
    = Host.divf (broadcastInDim S1x2048 ![] bcast_S_S1x2048 (constant (F := Ideal) S_ .f32 0x3F800000#32))
        (addf (Host.sqrt (W2 m ρ c (Proc.devRef .tc main_v2_0)))
          (broadcastInDim S1x2048 ![] bcast_S_S1x2048 (constant (F := Ideal) S_ .f32 0x358637BD#32))) := by
  show StableHlo.after hostOps1 (W2 m ρ c) (Proc.devRef .tc main_v7) = _
  after_results
theorem V3_v12 (c : Dev nD) : V3 m ρ c main_v12
    = Host.divf (broadcastInDim S1x2048 ![] bcast_S_S1x2048 (constant (F := Ideal) S_ .f32 0x3F800000#32))
        (addf (Host.sqrt (W2 m ρ c (Proc.devRef .tc main_v2_1)))
          (broadcastInDim S1x2048 ![] bcast_S_S1x2048 (constant (F := Ideal) S_ .f32 0x358637BD#32))) := by
  show StableHlo.after hostOps1 (W2 m ρ c) (Proc.devRef .tc main_v12) = _
  after_results

/-- The first factor row is the first input's per-column reciprocal. -/
theorem f1_apply (c : Dev nD) (u : Fin 1) (j : Fin 2048) :
    V3 m ρ c main_v7 (ix2 u j) = Cert.GramMean.inv (A1 m c) j := by
  rw [V3_v7]
  show Ideal.div (Ideal.ofBits .f32 0x3F800000#32) (Ideal.sqrt (W2 m ρ c (Proc.devRef .tc main_v2_0) (ix2 u j)) + Ideal.ofBits .f32 0x358637BD#32) = _
  rw [show W2 m ρ c (Proc.devRef .tc main_v2_0) = NormSq.row1 (V1 m ρ) c from (W2_arr m ρ c 2).trans (NormSq.final2 (V1 m ρ) c)]
  show Ideal.div _ (Ideal.sqrt (Cert.GramMean.colSq (V1 m ρ c main_v0) j) + _) = _
  rw [V1_v0]
  rfl
theorem f2_apply (c : Dev nD) (u : Fin 1) (j : Fin 2048) :
    V3 m ρ c main_v12 (ix2 u j) = Cert.GramMean.inv (A2 m c) j := by
  rw [V3_v12]
  show Ideal.div (Ideal.ofBits .f32 0x3F800000#32) (Ideal.sqrt (W2 m ρ c (Proc.devRef .tc main_v2_1) (ix2 u j)) + Ideal.ofBits .f32 0x358637BD#32) = _
  rw [show W2 m ρ c (Proc.devRef .tc main_v2_1) = NormSq.row2 (V1 m ρ) c from (W2_arr m ρ c 3).trans (NormSq.final3 (V1 m ρ) c)]
  show Ideal.div _ (Ideal.sqrt (Cert.GramMean.colSq (V1 m ρ c main_v1) j) + _) = _
  rw [V1_v1]
  rfl

/-- The same facts over the second region's names for its arrays. -/
theorem X1_eq (c : Dev nD) : RowDot.X1 (V3 m ρ) c = A1 m c := V3_v0 m ρ c
theorem X2_eq (c : Dev nD) : RowDot.X2 (V3 m ρ) c = A2 m c := V3_v1 m ρ c
theorem f1_eq (c : Dev nD) (u : Fin 1) (j : Fin 2048) : RowDot.f1 (V3 m ρ) c (ix2 u j) = Cert.GramMean.inv (A1 m c) j :=
  f1_apply m ρ c u j
theorem f2_eq (c : Dev nD) (u : Fin 1) (j : Fin 2048) : RowDot.f2 (V3 m ρ) c (ix2 u j) = Cert.GramMean.inv (A2 m c) j :=
  f2_apply m ρ c u j

/-- So the second region's scalar is the row-sum form of the specification. -/
theorem total_eq (c : Dev nD) : RowDot.total (V3 m ρ) c = Cert.GramMean.rowDot (A1 m c) (A2 m c) := by
  unfold RowDot.total Cert.GramMean.rowDot Cert.GramMean.rowSum
  refine Finset.sum_congr rfl fun p _ => ?_
  refine congrArg₂ (· * ·) (Finset.sum_congr rfl fun cc _ => ?_) (Finset.sum_congr rfl fun d _ => ?_)
  · rw [X1_eq, f1_eq]
  · rw [X2_eq, f2_eq]

/-! ## Leaving @main -/

/-- The result buffer ends at the mean-square tail of the row-sum scalar. -/
theorem result (c : Dev nD) :
    W5 m ρ c (Proc.devRef .tc main_v16) = fun _ => Cert.GramMean.tail (Cert.GramMean.rowDot (A1 m c) (A2 m c)) := by
  have e : W5 m ρ c (Proc.devRef .tc main_v16)
      = mulf (Host.divf (shapeCast S_ (W4 m ρ c (Proc.devRef .tc main_v13)) shapeCasts_S1x1_S_) (constant (F := Ideal) S_ .f32 0x4A800000#32))
          (Host.divf (shapeCast S_ (W4 m ρ c (Proc.devRef .tc main_v13)) shapeCasts_S1x1_S_) (constant (F := Ideal) S_ .f32 0x4A800000#32)) := by
    show StableHlo.after hostOps2 (W4 m ρ c) (Proc.devRef .tc main_v16) = _
    after_results
    rfl
  rw [e, show W4 m ρ c (Proc.devRef .tc main_v13) = RowDot.scalar (V3 m ρ) c from (W4_arr m ρ c 4).trans (RowDot.final4 (V3 m ρ) c)]
  funext i
  have hs : shapeCast S_ (RowDot.scalar (V3 m ρ) c) shapeCasts_S1x1_S_ i = RowDot.total (V3 m ρ) c := by
    unfold shapeCast
    rfl
  show Ideal.div (shapeCast S_ (RowDot.scalar (V3 m ρ) c) shapeCasts_S1x1_S_ i) (Ideal.ofBits .f32 0x4A800000#32)
      * Ideal.div (shapeCast S_ (RowDot.scalar (V3 m ρ) c) shapeCasts_S1x1_S_ i) (Ideal.ofBits .f32 0x4A800000#32) = _
  rw [hs, total_eq]
  rfl

/-- The idealized kernel's run: the result buffer at that value, the arguments unchanged. -/
theorem run : θ_run defs (onTc (τ := τ) (main (F := Ideal))) ⟨m, fun _ => 0, ρ⟩ (fun r => ∀ c : Dev nD,
      r.2.mem ((c.tc : Thread nD τ).loc main_v16) = (fun _ => Cert.GramMean.tail (Cert.GramMean.rowDot (A1 m c) (A2 m c)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result m ρ c), (h c).2⟩) (Cert.KernelIdeal.RunValue.run m ρ)

end Cert.KernelIdeal.Result

end
-- ==== Proof.lean ====
/-
  Channel-wise Gram mean, squared: the kernel against its reference, over the extended reals.

  Both programs reshape the two inputs to 16384 pixels by 2048 channels, `A₁` and `A₂`, and give each column the
  denominator `den = √(∑ₚ A(p,c)²) + ε`. The reference divides every entry by its column's `den`, forms the
  2048 × 2048 Gram matrix of the two normalized inputs, and returns `(∑ Gram / 2²²)²`. The kernel never forms the
  Gram matrix: since `∑_{c,d} ∑_p a(p,c) b(p,d) = ∑_p (∑_c a(p,c)) (∑_d b(p,d))`, it computes the column sums of
  squares in a first pass over 32 tiles of 512 rows, the reciprocals `1/den` on the host, and in a second pass over
  the same tiles the sum of the products of the two scaled row sums; then `(· / 2²²)²`.

  On finite inputs every entry is a real number, `den` is a positive real, `x · (1/den) = x / den`, and the
  product of two finite sums distributes, so the two scalars agree (`GramMean.rowDot_eq_gramSum`); the closing
  division and square are the same function of that scalar on both sides.

  The three frames: the kernel's two at both instances are the run of its five stretches with every buffer
  accounted for; the reference's is its run with the result dropped. The idealization rewrote nothing.
-/
import proofs.«110359_j8693013807330_1_alg».proof.Defs
import proofs.«110359_j8693013807330_1_alg».proof.Proof.Gen.Kernel
import proofs.«110359_j8693013807330_1_alg».proof.Proof.Gen.Kernel.Skeleton
import proofs.«110359_j8693013807330_1_alg».proof.Proof.Gen.Kernel.Launch
import proofs.«110359_j8693013807330_1_alg».proof.Proof.Gen.Kernel.Points
import proofs.«110359_j8693013807330_1_alg».proof.Proof.Gen.Kernel.Frame
import proofs.«110359_j8693013807330_1_alg».proof.Proof.Gen.KernelIdeal
import proofs.«110359_j8693013807330_1_alg».proof.Proof.Gen.KernelIdeal.Skeleton
import proofs.«110359_j8693013807330_1_alg».proof.Proof.Gen.KernelIdeal.Launch
import proofs.«110359_j8693013807330_1_alg».proof.Proof.Gen.KernelIdeal.Points
import proofs.«110359_j8693013807330_1_alg».proof.Proof.Gen.KernelIdeal.Frame
import proofs.«110359_j8693013807330_1_alg».proof.Proof.Gen.ReferenceIdeal
import proofs.«110359_j8693013807330_1_alg».proof.Proof.Gen.ReferenceIdeal.Run
import proofs.«110359_j8693013807330_1_alg».proof.Proof.Gen.ReferenceIdeal.Read
import proofs.«110359_j8693013807330_1_alg».proof.Proof.Gen.Pre_finite_inputs
import proofs.«110359_j8693013807330_1_alg».proof.Proof.SpecLaws
import proofs.«110359_j8693013807330_1_alg».proof.Proof.Finite
import proofs.«110359_j8693013807330_1_alg».proof.Proof.RefValue
import proofs.«110359_j8693013807330_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at `tail (rowDot A₁ A₂)`: the kernel by its run through the two regions, the reference
    because its Gram-matrix sum is that scalar on finite inputs. -/
theorem algebraic : Cert.algebraic_KernelIdeal_ReferenceIdeal := by
  intro m ρ m' ρ' hpre hagree
  refine ⟨fun c => fun _ => Cert.GramMean.tail (Cert.GramMean.rowDot (Cert.KernelIdeal.Result.A1 m c) (Cert.KernelIdeal.Result.A2 m c)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  have hfin := Cert.FiniteInputs.real_of_pre _ _ (hpre c)
  have h1 := Cert.FiniteInputs.shapeCast_real _ Cert.KernelIdeal.Facts₀.shapeCasts_S8x256x128x128_S16384x2048 hfin.1
  have h2 := Cert.FiniteInputs.shapeCast_real _ Cert.KernelIdeal.Facts₀.shapeCasts_S8x256x128x128_S16384x2048 hfin.2
  rw [Cert.ReferenceIdeal.Read.val_main_v21_eq, Cert.ReferenceIdeal.RefValue.result_eq, (hagree c).1, (hagree c).2]
  funext i
  exact congrArg Cert.GramMean.tail (Cert.GramMean.rowDot_eq_gramSum _ _ h1 h2).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
